-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S1024x3072 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S512x1024 : Shape := ⟨2, ![512, 1024]⟩
abbrev S2x2048x3x1024 : Shape := ⟨4, ![2, 2048, 3, 1024]⟩
abbrev S2x2048x1x1024 : Shape := ⟨4, ![2, 2048, 1, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 29
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x3072, .bf16⟩
  | .hbm, ⟨6, _⟩ => ⟨S2x2048x3x1024, .bf16⟩
  | .hbm, ⟨7, _⟩ => ⟨S2x2048x1x1024, .bf16⟩
  | .hbm, ⟨8, _⟩ => ⟨S2x2048x1024, .bf16⟩
  | .hbm, ⟨9, _⟩ => ⟨S2x2048x1x1024, .bf16⟩
  | .hbm, ⟨10, _⟩ => ⟨S2x2048x1024, .bf16⟩
  | .hbm, ⟨11, _⟩ => ⟨S2x2048x1x1024, .bf16⟩
  | .hbm, ⟨12, _⟩ => ⟨S2x2048x1024, .bf16⟩
  | .hbm, ⟨13, _⟩ => ⟨S2x2048x16x64, .bf16⟩
  | .hbm, ⟨14, _⟩ => ⟨S2x16x2048x64, .bf16⟩
  | .hbm, ⟨15, _⟩ => ⟨S32x2048x64, .bf16⟩
  | .hbm, ⟨16, _⟩ => ⟨S2x2048x16x64, .bf16⟩
  | .hbm, ⟨17, _⟩ => ⟨S2x16x2048x64, .bf16⟩
  | .hbm, ⟨18, _⟩ => ⟨S32x2048x64, .bf16⟩
  | .hbm, ⟨19, _⟩ => ⟨S2x2048x16x64, .bf16⟩
  | .hbm, ⟨20, _⟩ => ⟨S2x16x2048x64, .bf16⟩
  | .hbm, ⟨21, _⟩ => ⟨S32x2048x64, .bf16⟩
  | .hbm, ⟨22, _⟩ => ⟨S32x2048x64, .bf16⟩
  | .hbm, ⟨23, _⟩ => ⟨S2x16x2048x64, .bf16⟩
  | .hbm, ⟨24, _⟩ => ⟨S2x2048x16x64, .bf16⟩
  | .hbm, ⟨25, _⟩ => ⟨S4096x1024, .bf16⟩
  | .hbm, ⟨26, _⟩ => ⟨S1x1024, .f32⟩
  | .hbm, ⟨27, _⟩ => ⟨S4096x1024, .f32⟩
  | .hbm, ⟨28, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x512x64, .bf16⟩
  | .local _ .vmem, ⟨13, _⟩ => ⟨S1x512x64, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  shapeCasts_S4096x3072_S2x2048x3x1024 : S4096x3072.ShapeCasts S2x2048x3x1024
  slices_S2x2048x3x1024_S2x2048x1x1024_0_0_0_0 : S2x2048x3x1024.Slices ![0, 0, 0, 0] S2x2048x1x1024
  shapeCasts_S2x2048x1x1024_S2x2048x1024 : S2x2048x1x1024.ShapeCasts S2x2048x1024
  slices_S2x2048x3x1024_S2x2048x1x1024_0_0_1_0 : S2x2048x3x1024.Slices ![0, 0, 1, 0] S2x2048x1x1024
  slices_S2x2048x3x1024_S2x2048x1x1024_0_0_2_0 : S2x2048x3x1024.Slices ![0, 0, 2, 0] S2x2048x1x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x16x64, .f32⟩
  | .hbm, ⟨9, _⟩ => ⟨S2x16x2048x64, .f32⟩
  | .hbm, ⟨10, _⟩ => ⟨S2x2048x16x64, .f32⟩
  | .hbm, ⟨11, _⟩ => ⟨S2x16x2048x64, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.Spec.lean ====
/-
  The mathematics of the certificate, stated once over plain index types and the extended reals.

  Multi-head attention over x : [2, 2048, 1024] with a fused projection w_qkv : [1024, 3072], sixteen heads of
  width 64, and an output projection w_out : [1024, 1024] with bias b : [1024]:

    qkv b s e      = ∑ d, x b s d · w_qkv d e
    score b h i j  = (∑ d, qkv b i (h·64 + d) · qkv b j (1024 + h·64 + d)) · 2⁻³
    top b h i      = max (−∞) (the maximum over j of score b h i j, folded from −∞)
    weight b h i j = exp (score b h i j − top b h i)
    prob b h i j   = weight b h i j / ∑ j', weight b h i j'
    head b h i d   = ∑ j, prob b h i j · qkv b j (2048 + h·64 + d)
    out b s n      = (∑ k, head b (k / 64) s (k % 64) · w_out k n) + bias n

  Three whole-array functions are stated beside it, one per matrix stage as a tiled program computes it on
  re-laid arrays: a rows-by-columns product, a batched attention over [32, 2048, 64] operands, and a product
  with a broadcast bias row. Nothing here mentions a program.
-/
import Idealize.ShloMosaic.PureOps.Ideal
import Idealize.ShloMosaic.PureOps.Ideal.Laws
import Idealize.ShloMosaic.Lib.ValueIdx

noncomputable section

namespace Attn

open Idealize.ShloMosaic Idealize.ShloMosaic.ValueIdx

/-- The scale 2⁻³ as the programs spell it (the f32 word of 0.125). -/
abbrev scaleW : EReal := Ideal.ofBits .f32 0x3E000000#32
/-- −∞ as the programs spell it (the f32 word of negative infinity). -/
abbrev ninf : EReal := Ideal.ofBits .f32 0xFF800000#32

abbrev T3 (a b c : Nat) := (⟨3, ![a, b, c]⟩ : Shape).Idx → EReal
abbrev T2 (a b : Nat) := (⟨2, ![a, b]⟩ : Shape).Idx → EReal
abbrev T1 (a : Nat) := (⟨1, ![a]⟩ : Shape).Idx → EReal

/-! ## The softmax row, over any finite key axis -/

/-- A row's maximum as both programs take it: the fold of `max` from −∞ over the keys, joined once more with −∞. -/
def rowTop {n : Nat} (s : Fin n → EReal) : EReal := max ninf ((Finset.univ : Finset (Fin n)).fold max ninf s)
/-- The unnormalised weight of key `j`. -/
def rowWeight {n : Nat} (s : Fin n → EReal) (j : Fin n) : EReal := Ideal.exp (s j - rowTop s)
/-- The normalised weight of key `j`: its weight over the row's total. -/
def rowProb {n : Nat} (s : Fin n → EReal) (j : Fin n) : EReal := Ideal.div (rowWeight s j) (∑ t : Fin n, rowWeight s t)

/-! ## The three stages on re-laid arrays -/

/-- Rows of `A` against columns of `B`. -/
def mm {M K N : Nat} (A : T2 M K) (B : T2 K N) : T2 M N := fun j => ∑ k : Fin K, A (ix2 (j 0) k) * B (ix2 k (j 1))

/-- The scaled score of query row `i` against key row `t` in batch entry `g`. -/
def attScore {G S D : Nat} (Q K : T3 G S D) (g : Fin G) (i t : Fin S) : EReal :=
  (∑ d : Fin D, Q (ix3 g i d) * K (ix3 g t d)) * scaleW
/-- Batched softmax attention on [G, S, D] operands. -/
def att {G S D : Nat} (Q K Vv : T3 G S D) : T3 G S D := fun j =>
  ∑ t : Fin S, rowProb (attScore Q K (j 0) (j 1)) t * Vv (ix3 (j 0) t (j 2))

/-- A product plus a bias row broadcast down the rows. -/
def mmBias {M K N : Nat} (A : T2 M K) (B : T2 K N) (r : T2 1 N) : T2 M N := fun j =>
  (∑ k : Fin K, A (ix2 (j 0) k) * B (ix2 k (j 1))) + r (ix2 0 (j 1))

/-! ## The whole function in natural coordinates -/

section Whole
variable (X : T3 2 2048 1024) (Wq : T2 1024 3072) (Wo : T2 1024 1024) (bias : T1 1024)

def colQ (h : Fin 16) (d : Fin 64) : Fin 3072 := ⟨h.val * 64 + d.val, by omega⟩
def colK (h : Fin 16) (d : Fin 64) : Fin 3072 := ⟨1024 + (h.val * 64 + d.val), by omega⟩
def colV (h : Fin 16) (d : Fin 64) : Fin 3072 := ⟨2048 + (h.val * 64 + d.val), by omega⟩

def qkv (b : Fin 2) (s : Fin 2048) (e : Fin 3072) : EReal := ∑ d : Fin 1024, X (ix3 b s d) * Wq (ix2 d e)
def score (b : Fin 2) (h : Fin 16) (i j : Fin 2048) : EReal :=
  (∑ d : Fin 64, qkv X Wq b i (colQ h d) * qkv X Wq b j (colK h d)) * scaleW
def head (b : Fin 2) (h : Fin 16) (i : Fin 2048) (d : Fin 64) : EReal :=
  ∑ j : Fin 2048, rowProb (score X Wq b h i) j * qkv X Wq b j (colV h d)
def headOf (k : Fin 1024) : Fin 16 := ⟨k.val / 64, by omega⟩
def laneOf (k : Fin 1024) : Fin 64 := ⟨k.val % 64, by omega⟩
def out (b : Fin 2) (s : Fin 2048) (n : Fin 1024) : EReal :=
  (∑ k : Fin 1024, head X Wq b (headOf k) s (laneOf k) * Wo (ix2 k n)) + bias (ix1 n)
/-- The result array. -/
def Out : T3 2 2048 1024 := fun i => out X Wq Wo bias (i 0) (i 1) (i 2)

end Whole

/-! ## The same function as a tiled program lays it out

The projection runs on the rows `b·2048 + s` of a [4096, 1024] array; a head's operand is cut out of the [4096, 3072]
product by rows `(g / 16)·2048 + s` and columns `off·1024 + (g % 16)·64 + d` for the batch entry `g = b·16 + h`; the
heads are merged back into [4096, 1024] and the result is read off the rows again. -/

def rowOf (b : Fin 2) (s : Fin 2048) : Fin 4096 := ⟨b.val * 2048 + s.val, by omega⟩
def batchOf (r : Fin 4096) : Fin 2 := ⟨r.val / 2048, by omega⟩
def seqOf (r : Fin 4096) : Fin 2048 := ⟨r.val % 2048, by omega⟩
def hrow (g : Fin 32) (s : Fin 2048) : Fin 4096 := ⟨(g.val / 16) * 2048 + s.val, by omega⟩
def hcol (off : Fin 3) (g : Fin 32) (d : Fin 64) : Fin 3072 := ⟨off.val * 1024 + ((g.val % 16) * 64 + d.val), by omega⟩
def gOf (r : Fin 4096) (k : Fin 1024) : Fin 32 := ⟨(r.val / 2048) * 16 + k.val / 64, by omega⟩

/-- [2, 2048, 1024] read as [4096, 1024]. -/
def relayX (X : T3 2 2048 1024) : T2 4096 1024 := fun j => X (ix3 (batchOf (j 0)) (seqOf (j 0)) (j 1))
/-- One of the three operands (off = 0, 1, 2 for queries, keys, values), split into heads. -/
def heads (off : Fin 3) (A : T2 4096 3072) : T3 32 2048 64 := fun j => A (ix2 (hrow (j 0) (j 1)) (hcol off (j 0) (j 2)))
/-- The heads merged back into rows. -/
def merged (A : T3 32 2048 64) : T2 4096 1024 := fun j => A (ix3 (gOf (j 0) (j 1)) (seqOf (j 0)) (laneOf (j 1)))
/-- The bias as a one-row array. -/
def rowBias (b : T1 1024) : T2 1 1024 := fun j => b (ix1 (j 1))
/-- [4096, 1024] read as [2, 2048, 1024]. -/
def unflat (A : T2 4096 1024) : T3 2 2048 1024 := fun j => A (ix2 (rowOf (j 0) (j 1)) (j 2))

/-- The result as the tiled program computes it. -/
def KernelOut (X : T3 2 2048 1024) (Wq : T2 1024 3072) (Wo : T2 1024 1024) (bias : T1 1024) : T3 2 2048 1024 :=
  unflat (mmBias (merged (att (heads 0 (mm (relayX X) Wq)) (heads 1 (mm (relayX X) Wq)) (heads 2 (mm (relayX X) Wq)))) Wo (rowBias bias))

end Attn

end
-- ==== Proof.KRegion0.lean ====
import proofs.«113037_j64003602645285_1_alg».proof.Proof.Gen.KernelIdeal.Frame
import proofs.«113037_j64003602645285_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an index -/

/-- The left operand's index on its row axis is the result's row. -/
theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's index on its column axis is the summation index. -/
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's index on its row axis is the summation index. -/
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The right operand's index on its column axis is the result's column. -/
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A block product into the zero accumulator, read at row `p` and column `q`: the sum over `k` of the left block at
    `(p, k)` times the right block at `(k, q)`. -/
theorem matmul_block_apply (a : FVec Ideal S512x1024 .bf16) (b : FVec Ideal S1024x1024 .bf16) (p : Fin 512) (q : Fin 1024) :
    FloatOps.matmul dot_S512x1024_S1024x1024_S512x1024_1_0_0_1_n_n none a b (constant S512x1024 .f32 0x00000000#32) (ix2 p q)
      = ∑ k : Fin 1024, a (ix2 p k) * b (ix2 k q) := by
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- The body's value at row `p` and column `q` of its block: the two loaded blocks' product there (the changes of
    format are the identity on the extended reals). -/
theorem pay_apply (x0 : Vec Ideal S512x1024 .f32) (x1 : Vec Ideal S1024x1024 .f32) (p : Fin 512) (q : Fin 1024) :
    k0_pay1 (F := Ideal) x0 x1 (ix2 p q) = ∑ k : Fin 1024, x0 (ix2 p k) * x1 (ix2 k q) := by
  unfold k0_pay1
  refine (truncf_apply (ψ := FTy.bf16) _ bitsLt_bf16_f32 (ix2 p q)).trans ?_
  refine (matmul_block_apply _ _ p q).trans ?_
  refine Finset.sum_congr rfl fun k _ => ?_
  rw [truncf_apply, truncf_apply, shapeCast_self]

/-! ## From the blocks to the array -/

theorem origin_eq : (![0, 0] : Fin 2 → Nat) = fun _ => 0 := funext fun a => by fin_cases a <;> rfl

/-- The program's index maps at every point of the grid: the left operand's row block is the result's and its column block
    is the only one; the right operand's row block is the only one and its column block is the result's; the
    result's block indices stay in their ranges. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7
    ∧ win0_2.index t (1 : Fin 2) ≤ 2 :=
  (by decide +kernel : ∀ t : Fin grid0.N, _)

/-- Every block of the result array is some point's. -/
theorem idx_onto : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

/-- The left operand's block at point `t`, read at `(p, k)`: the left array at row `r`, the result's row block times
    512 plus `p`, and column `k`. -/
theorem lblk_apply (c : Dev nD) (t : Fin cfg0.N) (p : Fin 512) (k : Fin 1024) (r : Fin 4096)
    (hr : r.val = win0_2.index t (0 : Fin 2) * 512 + p.val) :
    iblk0 V c 0 t (ix2 p k) = V c main_v0 (ix2 r k) := by
  unfold iblk0
  show V c main_v0 (((cfg0.win 0).blk t).view.emb (ix2 p k)) = V c main_v0 (ix2 r k)
  refine congrArg _ ?_
  obtain ⟨e0, e1, -⟩ := idx_facts t
  funext a; apply Fin.ext
  match a with
  | ⟨0, _⟩ => show win0_0.index t (0 : Fin 2) * 512 + 1 * p.val = r.val; omega
  | ⟨1, _⟩ => show win0_0.index t (1 : Fin 2) * 1024 + 1 * k.val = k.val; omega

/-- The right operand's block at point `t`, read at `(k, q)`: the right array at row `k` and column `s`, the result's
    column block times 1024 plus `q`. -/
theorem rblk_apply (c : Dev nD) (t : Fin cfg0.N) (k : Fin 1024) (q : Fin 1024) (s : Fin 3072)
    (hs : s.val = win0_2.index t (1 : Fin 2) * 1024 + q.val) :
    iblk0 V c 1 t (ix2 k q) = V c main_arg1 (ix2 k s) := by
  unfold iblk0
  show V c main_arg1 (((cfg0.win 1).blk t).view.emb (ix2 k q)) = V c main_arg1 (ix2 k s)
  refine congrArg _ ?_
  obtain ⟨-, -, e2, e3, -⟩ := idx_facts t
  funext a; apply Fin.ext
  match a with
  | ⟨0, _⟩ => show win0_1.index t (0 : Fin 2) * 1024 + 1 * k.val = k.val; omega
  | ⟨1, _⟩ => show win0_1.index t (1 : Fin 2) * 1024 + 1 * q.val = s.val; omega

/-- The body's value at `(p, q)` of point `t`'s block is the product of the two arrays at the array index the
    result's block puts `(p, q)` at. -/
theorem out_blk_apply (c : Dev nD) (t : Fin cfg0.N) (y : S512x1024.Idx) :
    k0_pay1 (F := Ideal) (iblk0 V c 0 t) (iblk0 V c 1 t) y
      = Attn.mm (V c main_v0) (V c main_arg1) (((cfg0.win 2).blk t).view.emb y) := by
  obtain ⟨p, q, rfl⟩ : ∃ (p : Fin 512) (q : Fin 1024), y = ix2 p q := ⟨y 0, y 1, eq_ix2 y⟩
  refine (pay_apply _ _ p q).trans ?_
  unfold Attn.mm
  refine Finset.sum_congr rfl fun k _ => ?_
  have hr : ((((cfg0.win 2).blk t).view.emb (ix2 p q)) 0).val = win0_2.index t (0 : Fin 2) * 512 + p.val := by
    show win0_2.index t (0 : Fin 2) * 512 + 1 * p.val = _; omega
  have hs : ((((cfg0.win 2).blk t).view.emb (ix2 p q)) 1).val = win0_2.index t (1 : Fin 2) * 1024 + q.val := by
    show win0_2.index t (1 : Fin 2) * 1024 + 1 * q.val = _; omega
  rw [lblk_apply V c t p k _ hr, rblk_apply V c t k q _ hs]

/-- What point `t` writes back is block `t` of the product of the two arrays as the region finds them. -/
theorem flushed_eq (c : Dev nD) (t : Fin cfg0.N) :
    (dat0 (F := Ideal) V c).flushed 2 t
      = ((cfg0.win 2).blk t).view.read (Elt Ideal) (Attn.mm (V c main_v0) (V c main_arg1)) := by
  show (cfg0.win 2).cut (grid0.coords t) ((dat0 V c).after 2 t) = _
  rw [after0_2]
  unfold out0_2
  rw [View.canon_unit_zero origin_eq]
  simp only [View.ld_unit_zero (S := S512x1024) origin_eq, View.ld_unit_zero (S := S1024x1024) origin_eq]
  funext y
  exact out_blk_apply V c t y

/-- An index of the result array is in point `t`'s block iff each coordinate is in the block's range on its axis. -/
theorem mem_blk (t : Fin cfg0.N) (i : S4096x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- Every index of the result array is in some point's block: the point whose block indices are the index's
    quotients by the block sizes. -/
theorem covered (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The first region leaves in its result array the rows-by-columns product of its two operand arrays, whatever the
    contents the region is entered at. -/
theorem region0 (c : Dev nD) :
    (dat0 (F := Ideal) V c).arrAt 2 cfg0.N = Attn.mm (V c main_v0) (V c main_arg1) :=
  (dat0 (F := Ideal) V c).arrAt_eq_of_cover 2 _ (fun t _ => flushed_eq V c t) covered

end Cert.KernelIdeal.Stage0

end
-- ==== Proof.KRegion1.lean ====
import proofs.«113037_j64003602645285_1_alg».proof.Proof.Gen.KernelIdeal.Frame
import proofs.«113037_j64003602645285_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Column forms of a row statistic

A vector of row statistics becomes a one-column matrix, and a one-column matrix is repeated along every row. -/

/-- An `[a]` array cast to `[a, 1]` reads, at `(i, u)`, the operand at `i`, whatever the unit coordinate `u`. -/
theorem castColumn_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
theorem spreadColumn_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products -/

theorem lhs_score_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_score_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_score_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_score_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Queries against keys: entry `(i, t)` of the first product is the sum over the 64 lanes of query row `i` times key row `t`. -/
theorem score_apply (x0 : FVec Ideal S512x64 .bf16) (x1 : FVec Ideal S2048x64 .bf16) (i : Fin 512) (t : Fin 2048) :
    matmul dot_S512x64_S2048x64_S512x2048_1_1_0_0_n_n none x0 x1 (constant (F := Ideal) S512x2048 .f32 0x00000000#32) (ix2 i t)
      = ∑ d : Fin 64, x0 (ix2 i d) * x1 (ix2 t d) := by
  refine (Ideal.matmul_constant_zero_apply dot_S512x64_S2048x64_S512x2048_1_1_0_0_n_n none x0 x1 (ix2 i t)).trans ?_
  rw [← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 i t) ((ValueIdx.contrEquiv1 dot_S512x64_S2048x64_S512x2048_1_1_0_0_n_n 64 rfl rfl).symm k) = ix2 i k := funext fun a => Fin.ext (by
    match a with
    | ⟨0, _⟩ => exact lhs_score_0 _ _
    | ⟨1, _⟩ => exact (lhs_score_1 _ _).trans hk)
  have er : dot_S512x64_S2048x64_S512x2048_1_1_0_0_n_n.rhsIdx (ix2 i t) ((ValueIdx.contrEquiv1 dot_S512x64_S2048x64_S512x2048_1_1_0_0_n_n 64 rfl rfl).symm k) = ix2 t k := funext fun a => Fin.ext (by
    match a with
    | ⟨0, _⟩ => exact rhs_score_0 _ _
    | ⟨1, _⟩ => exact (rhs_score_1 _ _).trans hk)
  rw [el, er]

theorem lhs_mix_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_mix_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_mix_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_mix_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights against values: entry `(i, d)` of the second product is the sum over the 2048 keys of row `i`'s weight times the value row's lane `d`. -/
theorem mix_apply (p : FVec Ideal S512x2048 .bf16) (x2 : FVec Ideal S2048x64 .bf16) (i : Fin 512) (d : Fin 64) :
    matmul dot_S512x2048_S2048x64_S512x64_1_0_0_1_n_n none p x2 (constant (F := Ideal) S512x64 .f32 0x00000000#32) (ix2 i d)
      = ∑ t : Fin 2048, p (ix2 i t) * x2 (ix2 t d) := by
  refine (Ideal.matmul_constant_zero_apply dot_S512x2048_S2048x64_S512x64_1_0_0_1_n_n none p x2 (ix2 i d)).trans ?_
  rw [← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 i d) ((ValueIdx.contrEquiv1 dot_S512x2048_S2048x64_S512x64_1_0_0_1_n_n 2048 rfl rfl).symm k) = ix2 i k := funext fun a => Fin.ext (by
    match a with
    | ⟨0, _⟩ => exact lhs_mix_0 _ _
    | ⟨1, _⟩ => exact (lhs_mix_1 _ _).trans hk)
  have er : dot_S512x2048_S2048x64_S512x64_1_0_0_1_n_n.rhsIdx (ix2 i d) ((ValueIdx.contrEquiv1 dot_S512x2048_S2048x64_S512x64_1_0_0_1_n_n 2048 rfl rfl).symm k) = ix2 k d := funext fun a => Fin.ext (by
    match a with
    | ⟨0, _⟩ => exact (rhs_mix_0 _ _).trans hk
    | ⟨1, _⟩ => exact rhs_mix_1 _ _)
  rw [el, er]

/-! ## The two lane reductions

A reduction over the key axis of a `[512, 2048]` array, read at row `i`, runs over the entries `(i, t)`. -/

/-- Row `i` with key coordinate `k` put back is the entry `(i, k)`. -/
theorem lift_row (h : S512x2048.Reduces [1] S512) (i : Fin 512) (k : Fin 2048) :
    h.lift (ix1 i) k = ix2 i k := by
  funext c
  apply Fin.ext
  match c with
  | ⟨0, _⟩ => rfl
  | ⟨1, _⟩ => rfl

/-- The lane maximum from −∞, read at row `i`: the fold of `max` from −∞ over the row's 2048 entries. -/
theorem laneMax_apply (src : FVec Ideal S512x2048 .f32) (i : Fin 512) :
    multiReduction .maximumf [1] S512 src 0xFF800000#32 reduces_S512x2048_S512 (.inl rfl) rfl (ix1 i)
      = (Finset.univ : Finset (Fin 2048)).fold max Attn.ninf (fun t => src (ix2 i t)) := by
  refine (Ideal.multiReduction_maximumf_single src 0xFF800000#32 reduces_S512x2048_S512 (.inl rfl) rfl (ix1 i)).trans ?_
  exact congrArg (fun f => (Finset.univ : Finset (Fin 2048)).fold max Attn.ninf f)
    (funext fun k => congrArg src (lift_row reduces_S512x2048_S512 i k))

/-- The lane sum, read at row `i`: the sum of the row's 2048 entries. -/
theorem laneSum_apply (src : FVec Ideal S512x2048 .f32) (i : Fin 512) :
    multiReduction .add [1] S512 src 0x00000000#32 reduces_S512x2048_S512 (.inl rfl) rfl (ix1 i)
      = ∑ t : Fin 2048, src (ix2 i t) := by
  refine (Ideal.multiReduction_add_single src 0x00000000#32 reduces_S512x2048_S512 (.inl rfl) rfl (ix1 i)).trans ?_
  exact Finset.sum_congr rfl fun k _ => congrArg src (lift_row reduces_S512x2048_S512 i k)

/-! ## The softmax of a score block

The body's middle, from the scaled scores `s : [512, 2048]` to the normalised weights, is row by row the softmax row of
the mathematics: the row's top, the weights `exp (s − top)`, their total, and the quotient. -/

/-- The exponential of a vector is taken entry by entry. -/
theorem expV_apply {s : Shape} {φ : FTy} (x : FVec Ideal s φ) (j : s.Idx) : exp x j = Ideal.exp (x j) := rfl

/-- A vector of row statistics spread along the rows of a `[512, 2048]` array. -/
def colOf (v : FVec Ideal S512 .f32) : FVec Ideal S512x2048 .f32 :=
  broadcastTo S512x2048 (shapeCast S512x1 v shapeCasts_S512_S512x1) broadcasts_S512x1_S512x2048

theorem colOf_apply (v : FVec Ideal S512 .f32) (i : Fin 512) (t : Fin 2048) : colOf v (ix2 i t) = v (ix1 i) := by
  unfold colOf
  refine (spreadColumn_apply _ broadcasts_S512x1_S512x2048 i t).trans ?_
  exact castColumn_apply v shapeCasts_S512_S512x1 i (0 : Fin 1)

/-- The row tops of a score block. -/
def topV (s : FVec Ideal S512x2048 .f32) : FVec Ideal S512 .f32 :=
  maximumf (broadcast S512 (Scalar.ofBits (F := Ideal) .f32 0xFF800000#32))
    (multiReduction .maximumf [1] S512 s 0xFF800000#32 reduces_S512x2048_S512 (.inl rfl) rfl)

theorem topV_apply (s : FVec Ideal S512x2048 .f32) (i : Fin 512) :
    topV s (ix1 i) = Attn.rowTop (fun t : Fin 2048 => s (ix2 i t)) := by
  unfold topV Attn.rowTop
  rw [maximumf_apply, broadcast_apply, laneMax_apply, Ideal.ofBits_def]

/-- The unnormalised weights of a score block. -/
def weightV (s : FVec Ideal S512x2048 .f32) : FVec Ideal S512x2048 .f32 := exp (subf s (colOf (topV s)))

theorem weightV_apply (s : FVec Ideal S512x2048 .f32) (i : Fin 512) (t : Fin 2048) :
    weightV s (ix2 i t) = Attn.rowWeight (fun t : Fin 2048 => s (ix2 i t)) t := by
  unfold weightV Attn.rowWeight
  rw [expV_apply, subf_apply, colOf_apply, topV_apply]

/-- The row totals of an array of weights. -/
def totalV (w : FVec Ideal S512x2048 .f32) : FVec Ideal S512 .f32 :=
  multiReduction .add [1] S512 w 0x00000000#32 reduces_S512x2048_S512 (.inl rfl) rfl

/-- The normalised weights of a score block. -/
def probV (s : FVec Ideal S512x2048 .f32) : FVec Ideal S512x2048 .f32 :=
  divf (weightV s) (colOf (totalV (weightV s)))

theorem probV_apply (s : FVec Ideal S512x2048 .f32) (i : Fin 512) (t : Fin 2048) :
    probV s (ix2 i t) = Attn.rowProb (fun t : Fin 2048 => s (ix2 i t)) t := by
  unfold probV Attn.rowProb
  rw [divf_apply, colOf_apply]
  unfold totalV
  rw [laneSum_apply, weightV_apply]
  refine congrArg (Ideal.div (Attn.rowWeight (fun t : Fin 2048 => s (ix2 i t)) t)) ?_
  exact Finset.sum_congr rfl fun k _ => weightV_apply s i k

/-- The scaled scores of a query block against a key block. -/
def scoreV (q : FVec Ideal S512x64 .bf16) (k : FVec Ideal S2048x64 .bf16) : FVec Ideal S512x2048 .f32 :=
  mulf (matmul dot_S512x64_S2048x64_S512x2048_1_1_0_0_n_n none q k (constant (F := Ideal) S512x2048 .f32 0x00000000#32))
    (broadcast S512x2048 (Scalar.ofBits (F := Ideal) .f32 0x3E000000#32))

theorem scoreV_apply (q : FVec Ideal S512x64 .bf16) (k : FVec Ideal S2048x64 .bf16) (i : Fin 512) (t : Fin 2048) :
    scoreV q k (ix2 i t) = (∑ d : Fin 64, q (ix2 i d) * k (ix2 t d)) * Attn.scaleW := by
  unfold scoreV
  rw [mulf_apply, broadcast_apply, score_apply, Ideal.ofBits_def]

/-! ## The body's payload at an index -/

/-- The payload is the second product of the normalised weights of the scaled scores, between the layout casts. -/
theorem pay_eq (x0 : FVec Ideal S1x512x64 .bf16) (x1 x2 : FVec Ideal S1x2048x64 .bf16) :
    k1_pay1 (F := Ideal) x0 x1 x2
      = shapeCast S1x512x64 (truncf .bf16 (matmul dot_S512x2048_S2048x64_S512x64_1_0_0_1_n_n none
          (truncf .bf16 (probV (scoreV (shapeCast S512x64 x0 shapeCasts_S1x512x64_S512x64) (shapeCast S2048x64 x1 shapeCasts_S1x2048x64_S2048x64))) bitsLt_bf16_f32)
          (shapeCast S2048x64 x2 shapeCasts_S1x2048x64_S2048x64) (constant (F := Ideal) S512x64 .f32 0x00000000#32)) bitsLt_bf16_f32) shapeCasts_S512x64_S1x512x64 := rfl

/-- The payload at `(u, i, d)`: the attention of query row `i` of the loaded query block against the loaded key and value blocks. -/
theorem pay_apply (x0 : FVec Ideal S1x512x64 .bf16) (x1 x2 : FVec Ideal S1x2048x64 .bf16) (u : Fin 1) (i : Fin 512) (d : Fin 64) :
    k1_pay1 (F := Ideal) x0 x1 x2 (ix3 u i d)
      = ∑ t : Fin 2048, Attn.rowProb (fun t : Fin 2048 => (∑ e : Fin 64, x0 (ix3 (0 : Fin 1) i e) * x1 (ix3 (0 : Fin 1) t e)) * Attn.scaleW) t
          * x2 (ix3 (0 : Fin 1) t d) := by
  rw [pay_eq]
  refine (shapeCast_ab_1ab_apply _ shapeCasts_S512x64_S1x512x64 u i d).trans ?_
  rw [truncf_apply]
  refine (mix_apply _ _ i d).trans ?_
  refine Finset.sum_congr rfl fun t _ => ?_
  rw [truncf_apply, probV_apply, shapeCast_1ab_ab_apply]
  refine congrArg (fun f => Attn.rowProb f t * x2 (ix3 (0 : Fin 1) t d)) (funext fun t' => ?_)
  rw [scoreV_apply]
  refine congrArg (· * Attn.scaleW) (Finset.sum_congr rfl fun e _ => ?_)
  rw [shapeCast_1ab_ab_apply, shapeCast_1ab_ab_apply]

/-! ## From blocks to the array

Point `t` of the grid `(32, 4)` reads query block `(g, b)` — batch entry `g`, rows `512 b … 512 b + 511` —, the whole key
and value arrays of batch entry `g`, and writes block `(g, b)` of the result. -/

/-- Batched attention at an index written by coordinates. -/
theorem att_apply {G S D : Nat} (Q K W : Attn.T3 G S D) (g : Fin G) (r : Fin S) (d : Fin D) :
    Attn.att Q K W (ix3 g r d)
      = ∑ t : Fin S, Attn.rowProb (fun t' : Fin S => (∑ e : Fin D, Q (ix3 g r e) * K (ix3 g t' e)) * Attn.scaleW) t * W (ix3 g t d) := rfl

/-- The payload of blocks cut out of whole arrays — the query block from rows `r0 …` of batch entry `g`, the key and value
    blocks all of batch entry `g` — is the attention of the whole arrays at the block's place. -/
theorem block_value (Q K W : Attn.T3 32 2048 64) (x0 : FVec Ideal S1x512x64 .bf16) (x1 x2 : FVec Ideal S1x2048x64 .bf16)
    (g : Fin 32) (r0 : Nat) (hr0 : r0 + 512 ≤ 2048)
    (h0 : ∀ (i : Fin 512) (e : Fin 64), x0 (ix3 (0 : Fin 1) i e) = Q (ix3 g (⟨r0 + i.val, by omega⟩ : Fin 2048) e))
    (h1 : ∀ (t : Fin 2048) (e : Fin 64), x1 (ix3 (0 : Fin 1) t e) = K (ix3 g t e))
    (h2 : ∀ (t : Fin 2048) (e : Fin 64), x2 (ix3 (0 : Fin 1) t e) = W (ix3 g t e))
    (u : Fin 1) (i : Fin 512) (d : Fin 64) :
    k1_pay1 (F := Ideal) x0 x1 x2 (ix3 u i d) = Attn.att Q K W (ix3 g (⟨r0 + i.val, by omega⟩ : Fin 2048) d) := by
  rw [pay_apply, att_apply]
  refine Finset.sum_congr rfl fun t _ => ?_
  rw [h2]
  refine congrArg (fun f => Attn.rowProb f t * W (ix3 g t d)) (funext fun t' => ?_)
  refine congrArg (· * Attn.scaleW) (Finset.sum_congr rfl fun e _ => ?_)
  rw [h0, h1]

theorem zero3 : (![0, 0, 0] : Fin 3 → Nat) = fun _ => 0 := funext fun a => by fin_cases a <;> rfl

/-- The printed index maps, decided over the grid: the query window moves with the result window, the key and value
    windows follow its batch entry only, and the result's block indices stay in their ranges. -/
theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (0 : Fin 3) ≤ 31
    ∧ win1_3.index t (1 : Fin 3) ≤ 3
    ∧ win1_3.index t (2 : Fin 3) = 0 :=
  (by decide +kernel : ∀ t : Fin grid1.N, _)

/-- Every block of the result is some point's. -/
theorem idx_onto : ∀ (q0 : Fin 32) (q1 : Fin 4), ∃ t : Fin cfg1.N, win1_3.index t = ![q0.val, q1.val, 0] :=
  (by decide +kernel : ∀ (q0 : Fin 32) (q1 : Fin 4), ∃ t : Fin grid1.N, win1_3.index t = ![q0.val, q1.val, 0])

/-- The query window's block at a point is rows `512 b …` of batch entry `g` of the query array, `(g, b, 0)` the window's block index there. -/
theorem qblk_read (c : Dev nD) (t : Fin cfg1.N) (i : Fin 512) (e : Fin 64) (g : Fin 32) (r : Fin 2048)
    (hg : g.val = win1_0.index t (0 : Fin 3)) (hr : r.val = win1_0.index t (1 : Fin 3) * 512 + i.val)
    (hz : win1_0.index t (2 : Fin 3) = 0) :
    iblk1 (F := Ideal) V c 0 t (ix3 (0 : Fin 1) i e) = V c main_v11 (ix3 g r e) := by
  unfold iblk1
  show V c main_v11 (((cfg1.win 0).blk t).view.emb (ix3 (0 : Fin 1) i e)) = _
  refine congrArg (V c main_v11) (funext fun a => Fin.ext ?_)
  match a with
  | ⟨0, _⟩ => show win1_0.index t (0 : Fin 3) * 1 + 1 * 0 = g.val; omega
  | ⟨1, _⟩ => show win1_0.index t (1 : Fin 3) * 512 + 1 * i.val = r.val; omega
  | ⟨2, _⟩ => show win1_0.index t (2 : Fin 3) * 64 + 1 * e.val = e.val; omega

/-- The key window's block at a point is all of batch entry `g` of the key array, `(g, 0, 0)` the window's block index there. -/
theorem kblk_read (c : Dev nD) (t : Fin cfg1.N) (s : Fin 2048) (e : Fin 64) (g : Fin 32)
    (hg : g.val = win1_1.index t (0 : Fin 3)) (hs : win1_1.index t (1 : Fin 3) = 0) (hz : win1_1.index t (2 : Fin 3) = 0) :
    iblk1 (F := Ideal) V c 1 t (ix3 (0 : Fin 1) s e) = V c main_v14 (ix3 g s e) := by
  unfold iblk1
  show V c main_v14 (((cfg1.win 1).blk t).view.emb (ix3 (0 : Fin 1) s e)) = _
  refine congrArg (V c main_v14) (funext fun a => Fin.ext ?_)
  match a with
  | ⟨0, _⟩ => show win1_1.index t (0 : Fin 3) * 1 + 1 * 0 = g.val; omega
  | ⟨1, _⟩ => show win1_1.index t (1 : Fin 3) * 2048 + 1 * s.val = s.val; omega
  | ⟨2, _⟩ => show win1_1.index t (2 : Fin 3) * 64 + 1 * e.val = e.val; omega

/-- The value window's block at a point is all of batch entry `g` of the value array. -/
theorem vblk_read (c : Dev nD) (t : Fin cfg1.N) (s : Fin 2048) (e : Fin 64) (g : Fin 32)
    (hg : g.val = win1_2.index t (0 : Fin 3)) (hs : win1_2.index t (1 : Fin 3) = 0) (hz : win1_2.index t (2 : Fin 3) = 0) :
    iblk1 (F := Ideal) V c 2 t (ix3 (0 : Fin 1) s e) = V c main_v17 (ix3 g s e) := by
  unfold iblk1
  show V c main_v17 (((cfg1.win 2).blk t).view.emb (ix3 (0 : Fin 1) s e)) = _
  refine congrArg (V c main_v17) (funext fun a => Fin.ext ?_)
  match a with
  | ⟨0, _⟩ => show win1_2.index t (0 : Fin 3) * 1 + 1 * 0 = g.val; omega
  | ⟨1, _⟩ => show win1_2.index t (1 : Fin 3) * 2048 + 1 * s.val = s.val; omega
  | ⟨2, _⟩ => show win1_2.index t (2 : Fin 3) * 64 + 1 * e.val = e.val; omega

/-- WHAT POINT `t` WRITES BACK is block `t` of the attention of the three operand arrays as the region finds them. -/
theorem flushed_eq (c : Dev nD) (t : Fin cfg1.N) :
    (dat1 (F := Ideal) V c).flushed 3 t
      = ((cfg1.win 3).blk t).view.read (Elt Ideal) (Attn.att (V c main_v11) (V c main_v14) (V c main_v17)) := by
  show (cfg1.win 3).cut (grid1.coords t) ((dat1 V c).after 3 t) = _
  rw [after1_3]
  unfold out1_3
  rw [View.canon_unit_zero zero3]
  simp only [View.ld_unit_zero (S := S1x512x64) zero3, View.ld_unit_zero (S := S1x2048x64) zero3]
  obtain ⟨e00, e01, e02, e10, e11, e12, e20, e21, e22, b0, b1, e32⟩ := idx_facts t
  funext y
  have hy0 : (y 0).val < 1 := (y 0).isLt
  have hy1 : (y 1).val < 512 := (y 1).isLt
  have hy2 : (y 2).val < 64 := (y 2).isLt
  have hemb : ((cfg1.win 3).blk t).view.emb y
      = ix3 (⟨win1_3.index t (0 : Fin 3), by omega⟩ : Fin 32) (⟨win1_3.index t (1 : Fin 3) * 512 + (⟨(y 1).val, hy1⟩ : Fin 512).val, by show _ + (y 1).val < 2048; omega⟩ : Fin 2048)
          (⟨(y 2).val, hy2⟩ : Fin 64) := by
    funext a
    apply Fin.ext
    match a with
    | ⟨0, _⟩ => show win1_3.index t (0 : Fin 3) * 1 + 1 * (y 0).val = win1_3.index t (0 : Fin 3); omega
    | ⟨1, _⟩ => show win1_3.index t (1 : Fin 3) * 512 + 1 * (y 1).val = win1_3.index t (1 : Fin 3) * 512 + (y 1).val; omega
    | ⟨2, _⟩ => show win1_3.index t (2 : Fin 3) * 64 + 1 * (y 2).val = (y 2).val; omega
  show k1_pay1 (F := Ideal) (iblk1 V c 0 t) (iblk1 V c 1 t) (iblk1 V c 2 t) (ix3 (⟨(y 0).val, hy0⟩ : Fin 1) (⟨(y 1).val, hy1⟩ : Fin 512) (⟨(y 2).val, hy2⟩ : Fin 64))
      = Attn.att (V c main_v11) (V c main_v14) (V c main_v17) (((cfg1.win 3).blk t).view.emb y)
  rw [hemb]
  exact block_value (V c main_v11) (V c main_v14) (V c main_v17) (iblk1 V c 0 t) (iblk1 V c 1 t) (iblk1 V c 2 t)
    (⟨win1_3.index t (0 : Fin 3), by omega⟩ : Fin 32) (win1_3.index t (1 : Fin 3) * 512) (by omega)
    (fun i e => qblk_read V c t i e _ _ e00.symm (by show win1_3.index t (1 : Fin 3) * 512 + i.val = win1_0.index t (1 : Fin 3) * 512 + i.val; omega) e02)
    (fun s e => kblk_read V c t s e _ e10.symm e11 e12)
    (fun s e => vblk_read V c t s e _ e20.symm e21 e22)
    _ _ _

/-- An index of the array is in point `t`'s block iff each coordinate is in the block's range on its axis. -/
theorem mem_blk (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v18).slice (win1_3.rect t)).set ↔ _
  rw [View.set_slice_whole, Rect.mem_set_unit]
  exact Iff.rfl

/-- Every index of the result is in some point's block: the point of batch entry `i 0` and row block `i 1 / 512`. -/
theorem cover (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The second region leaves in its result array the batched softmax attention of its three operand arrays, whatever
    the contents the region is entered at. -/
theorem region1 (c : Dev nD) :
    (dat1 (F := Ideal) V c).arrAt 3 cfg1.N = Attn.att (V c main_v11) (V c main_v14) (V c main_v17) :=
  (dat1 (F := Ideal) V c).arrAt_eq_of_cover 3 _ (fun t _ => flushed_eq V c t) cover

end Cert.KernelIdeal.Stage1

end
-- ==== Proof.KRegion2.lean ====
import proofs.«113037_j64003602645285_1_alg».proof.Proof.Gen.KernelIdeal.Frame
import proofs.«113037_j64003602645285_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The product's operand indices, axis by axis -/

theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A [512, 1024] by [1024, 1024] product into zeros, read at (p, q): the sum over the shared axis. -/
theorem mm_apply (a : FVec Ideal S512x1024 .bf16) (b : FVec Ideal S1024x1024 .bf16) (p : Fin 512) (q : Fin 1024) :
    FloatOps.matmul dot_S512x1024_S1024x1024_S512x1024_1_0_0_1_n_n none a b (constant (F := Ideal) S512x1024 .f32 0x00000000#32) (ix2 p q)
      = ∑ k : Fin 1024, a (ix2 p k) * b (ix2 k q) := by
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- The body's value at (p, q) of its block: the row of the first operand against the column of the second, plus the
    one-row third at the column. -/
theorem pay_apply (x0 : Vec Ideal S512x1024 .bf16) (x1 : Vec Ideal S1024x1024 .f32) (x2 : Vec Ideal S1x1024 .f32) (p : Fin 512) (q : Fin 1024) :
    k2_pay1 (F := Ideal) x0 x1 x2 (ix2 p q) = (∑ k : Fin 1024, x0 (ix2 p k) * x1 (ix2 k q)) + x2 (ix2 (0 : Fin 1) q) := by
  unfold k2_pay1
  refine (addf_apply _ _ (ix2 p q)).trans ?_
  refine congrArg₂ (· + ·) ?_ ?_
  · refine (mm_apply _ _ p q).trans ?_
    refine Finset.sum_congr rfl fun k _ => ?_
    rw [shapeCast_self]
    rfl
  · refine (broadcastTo_1b_ab_apply _ _ p q).trans ?_
    rw [shapeCast_self]

variable (V : (c : Dev nD) → (b : Ref sig .tc) → Buf (Elt Ideal) ((c : Thread nD τ).loc b))

/-! ## From the blocks to the array -/

theorem zeros2 : (![0, 0] : Fin 2 → Nat) = fun _ => 0 := funext fun a => by fin_cases a <;> rfl

/-- The printed index maps, decided over the grid: the first operand's row block moves with the result's, every other
    block index is zero, and the result's row block stays in its range. -/
theorem block_indices : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 7 :=
  (by decide +kernel : ∀ t : Fin grid2.N, _)

/-- Every row block of the result is some point's. -/
theorem block_onto : ∀ (q0 : Fin 8), ∃ t : Fin cfg2.N, win2_3.index t = ![q0.val, 0] :=
  (by decide +kernel : ∀ (q0 : Fin 8), ∃ t : Fin grid2.N, win2_3.index t = ![q0.val, 0])

/-- Each operand's block at a point reads its array where the block sits. -/
theorem blk0_apply (c : Dev nD) (t : Fin cfg2.N) (y : S512x1024.Idx) :
    iblk2 V c 0 t y = V c main_v21 (((cfg2.win 0).blk t).view.emb y) := by
  unfold iblk2; rfl
theorem blk1_apply (c : Dev nD) (t : Fin cfg2.N) (y : S1024x1024.Idx) :
    iblk2 V c 1 t y = V c main_arg2 (((cfg2.win 1).blk t).view.emb y) := by
  unfold iblk2; rfl
theorem blk2_apply (c : Dev nD) (t : Fin cfg2.N) (y : S1x1024.Idx) :
    iblk2 V c 2 t y = V c main_v22 (((cfg2.win 2).blk t).view.emb y) := by
  unfold iblk2; rfl

/-- Row p, column k of the first operand's block is the array's entry on the result's row, at column k. -/
theorem emb_lhs (t : Fin cfg2.N) (p : Fin 512) (q k : Fin 1024) :
    ((cfg2.win 0).blk t).view.emb (ix2 p k) = ix2 ((((cfg2.win 3).blk t).view.emb (ix2 p q)) 0) k := by
  obtain ⟨e0, e1, e2, e3, e4, e5, e6, e7⟩ := block_indices t
  funext a; apply Fin.ext
  match a with
  | ⟨0, _⟩ => show win2_0.index t (0 : Fin 2) * 512 + 1 * p.val = win2_3.index t (0 : Fin 2) * 512 + 1 * p.val; omega
  | ⟨1, _⟩ => show win2_0.index t (1 : Fin 2) * 1024 + 1 * k.val = k.val; omega

/-- Row k, column q of the second operand's block is the array's entry at row k, on the result's column. -/
theorem emb_rhs (t : Fin cfg2.N) (p : Fin 512) (q k : Fin 1024) :
    ((cfg2.win 1).blk t).view.emb (ix2 k q) = ix2 k ((((cfg2.win 3).blk t).view.emb (ix2 p q)) 1) := by
  obtain ⟨e0, e1, e2, e3, e4, e5, e6, e7⟩ := block_indices t
  funext a; apply Fin.ext
  match a with
  | ⟨0, _⟩ => show win2_1.index t (0 : Fin 2) * 1024 + 1 * k.val = k.val; omega
  | ⟨1, _⟩ => show win2_1.index t (1 : Fin 2) * 1024 + 1 * q.val = win2_3.index t (1 : Fin 2) * 1024 + 1 * q.val; omega

/-- Column q of the one-row operand's block is the array's entry on the result's column. -/
theorem emb_row (t : Fin cfg2.N) (p : Fin 512) (q : Fin 1024) :
    ((cfg2.win 2).blk t).view.emb (ix2 (0 : Fin 1) q) = ix2 (0 : Fin 1) ((((cfg2.win 3).blk t).view.emb (ix2 p q)) 1) := by
  obtain ⟨e0, e1, e2, e3, e4, e5, e6, e7⟩ := block_indices t
  funext a; apply Fin.ext
  match a with
  | ⟨0, _⟩ => show win2_2.index t (0 : Fin 2) * 1 + 1 * 0 = 0; omega
  | ⟨1, _⟩ => show win2_2.index t (1 : Fin 2) * 1024 + 1 * q.val = win2_3.index t (1 : Fin 2) * 1024 + 1 * q.val; omega

/-- The body's value at an index of its block is the whole-array function where the result's block puts that index. -/
theorem point_eq (c : Dev nD) (t : Fin cfg2.N) (j : S512x1024.Idx) :
    k2_pay1 (F := Ideal) (iblk2 V c 0 t) (iblk2 V c 1 t) (iblk2 V c 2 t) j
      = Attn.mmBias (V c main_v21) (V c main_arg2) (V c main_v22) (((cfg2.win 3).blk t).view.emb j) := by
  obtain ⟨p, q, rfl⟩ : ∃ (p : Fin 512) (q : Fin 1024), j = ix2 p q := ⟨j 0, j 1, eq_ix2 j⟩
  refine (pay_apply _ _ _ p q).trans ?_
  unfold Attn.mmBias
  refine congrArg₂ (· + ·) (Finset.sum_congr rfl fun k _ => ?_) ?_
  · rw [blk0_apply, blk1_apply, emb_lhs t p q k, emb_rhs t p q k]
    rfl
  · rw [blk2_apply, emb_row t p q]
    rfl

/-- What point t writes back is block t of the whole-array function of the operand arrays as the region finds them. -/
theorem flushed_eq (c : Dev nD) (t : Fin cfg2.N) :
    (dat2 (F := Ideal) V c).flushed 3 t
      = ((cfg2.win 3).blk t).view.read (Elt Ideal) (Attn.mmBias (V c main_v21) (V c main_arg2) (V c main_v22)) := by
  show (cfg2.win 3).cut (grid2.coords t) ((dat2 V c).after 3 t) = _
  rw [after2_3]
  unfold out2_3
  rw [View.canon_unit_zero zeros2]
  simp only [View.ld_unit_zero (S := S512x1024) zeros2, View.ld_unit_zero (S := S1024x1024) zeros2, View.ld_unit_zero (S := S1x1024) zeros2]
  funext j
  exact point_eq V c t j

/-- An index of the array is in point t's block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v23).slice (win2_3.rect t)).set ↔ _
  rw [View.set_slice_whole, Rect.mem_set_unit]
  exact Iff.rfl

/-- Every index of the result array is in the block of the point its row's quotient by 512 names. -/
theorem cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := block_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The third region leaves in its result array the product of its first two operand arrays plus the one-row third
    broadcast down the rows, whatever the contents the region is entered at. -/
theorem region2 (c : Dev nD) :
    (dat2 (F := Ideal) V c).arrAt 3 cfg2.N = Attn.mmBias (V c main_v21) (V c main_arg2) (V c main_v22) :=
  (dat2 (F := Ideal) V c).arrAt_eq_of_cover 3 _ (fun t _ => flushed_eq V c t) cover

end Cert.KernelIdeal.Stage2

end
-- ==== Proof.KHost.lean ====
import proofs.«113037_j64003602645285_1_alg».proof.Proof.Gen.KernelIdeal.Frame
import proofs.«113037_j64003602645285_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostGlue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The re-layouts, each read at an index, for an arbitrary array -/

/-- A batch entry's batch index. -/
def gBatch (g : Fin 32) : Fin 2 := ⟨g.val / 16, by omega⟩
/-- A batch entry's head. -/
def gHead (g : Fin 32) : Fin 16 := ⟨g.val % 16, by omega⟩
/-- The column within one operand's 1024 columns of lane `d` of batch entry `g`. -/
def gCol (g : Fin 32) (d : Fin 64) : Fin 1024 := ⟨(g.val % 16) * 64 + d.val, by omega⟩

/-- [32, 2048, 64] read as [2, 16, 2048, 64], the two middle axes exchanged, then read as [4096, 1024]: the heads merged. -/
theorem merged_read (A : Attn.T3 32 2048 64) :
    (fun j => shapeCast S4096x1024
      (transpose S2x2048x16x64 [0, 2, 1, 3]
        (fun i => shapeCast S2x16x2048x64 A shapeCasts_S32x2048x64_S2x16x2048x64 i)
        transposes_S2x16x2048x64_S2x2048x16x64_0_2_1_3)
      shapeCasts_S2x2048x16x64_S4096x1024 j) = Attn.merged A := by
  funext j
  refine (shapeCast_apply _ shapeCasts_S2x2048x16x64_S4096x1024 j
    (ix4 (Attn.batchOf (j 0)) (Attn.seqOf (j 0)) (Attn.headOf (j 1)) (Attn.laneOf (j 1))) ?_).trans ?_
  · rw [Shape.rowMajor_val_four, Shape.rowMajor_val_two]
    have h0 : (j 0).val < 4096 := (j 0).isLt
    have h1 : (j 1).val < 1024 := (j 1).isLt
    show ((((j 0).val / 2048) * 2048 + (j 0).val % 2048) * 16 + (j 1).val / 64) * 64 + (j 1).val % 64
      = (j 0).val * 1024 + (j 1).val
    omega
  refine (transpose_apply [0, 2, 1, 3] _ transposes_S2x16x2048x64_S2x2048x16x64_0_2_1_3 _
    (ix4 (Attn.batchOf (j 0)) (Attn.headOf (j 1)) (Attn.seqOf (j 0)) (Attn.laneOf (j 1)))
    (fun b => match b with | ⟨0, _⟩ => rfl | ⟨1, _⟩ => rfl | ⟨2, _⟩ => rfl | ⟨3, _⟩ => rfl)).trans ?_
  refine (shapeCast_apply _ shapeCasts_S32x2048x64_S2x16x2048x64 _
    (ix3 (Attn.gOf (j 0) (j 1)) (Attn.seqOf (j 0)) (Attn.laneOf (j 1))) ?_).trans rfl
  rw [Shape.rowMajor_val_three, Shape.rowMajor_val_four]
  rfl

/-- [4096, 3072] read as [2, 2048, 3, 1024], operand `off` cut out, its 1024 columns read as 16 heads of 64 lanes, the
    sequence and head axes exchanged, then read as [32, 2048, 64]: one operand split into heads. -/
theorem heads_read (off : Fin 3) (hs : S2x2048x3x1024.Slices ![0, 0, off.val, 0] S2x2048x1x1024) (A : Attn.T2 4096 3072) :
    (fun j => shapeCast S32x2048x64
      (transpose S2x16x2048x64 [0, 2, 1, 3]
        (fun i => shapeCast S2x2048x16x64
          (fun i => shapeCast S2x2048x1024
            (extractStridedSlice S2x2048x1x1024 ![0, 0, off.val, 0]
              (fun i => shapeCast S2x2048x3x1024 A shapeCasts_S4096x3072_S2x2048x3x1024 i) hs)
            shapeCasts_S2x2048x1x1024_S2x2048x1024 i)
          shapeCasts_S2x2048x1024_S2x2048x16x64 i)
        transposes_S2x2048x16x64_S2x16x2048x64_0_2_1_3)
      shapeCasts_S2x16x2048x64_S32x2048x64 j) = Attn.heads off A := by
  funext j
  have h0 : (j 0).val < 32 := (j 0).isLt
  have h2 : (j 2).val < 64 := (j 2).isLt
  refine (shapeCast_apply _ shapeCasts_S2x16x2048x64_S32x2048x64 j
    (ix4 (gBatch (j 0)) (gHead (j 0)) (j 1) (j 2)) ?_).trans ?_
  · rw [Shape.rowMajor_val_four, Shape.rowMajor_val_three]
    show ((((j 0).val / 16) * 16 + (j 0).val % 16) * 2048 + (j 1).val) * 64 + (j 2).val
      = ((j 0).val * 2048 + (j 1).val) * 64 + (j 2).val
    omega
  refine (transpose_apply [0, 2, 1, 3] _ transposes_S2x2048x16x64_S2x16x2048x64_0_2_1_3 _
    (ix4 (gBatch (j 0)) (j 1) (gHead (j 0)) (j 2))
    (fun b => match b with | ⟨0, _⟩ => rfl | ⟨1, _⟩ => rfl | ⟨2, _⟩ => rfl | ⟨3, _⟩ => rfl)).trans ?_
  refine (shapeCast_apply _ shapeCasts_S2x2048x1024_S2x2048x16x64 _
    (ix3 (gBatch (j 0)) (j 1) (gCol (j 0) (j 2))) ?_).trans ?_
  · rw [Shape.rowMajor_val_three, Shape.rowMajor_val_four]
    show (((j 0).val / 16) * 2048 + (j 1).val) * 1024 + (((j 0).val % 16) * 64 + (j 2).val)
      = ((((j 0).val / 16) * 2048 + (j 1).val) * 16 + (j 0).val % 16) * 64 + (j 2).val
    omega
  refine (shapeCast_apply _ shapeCasts_S2x2048x1x1024_S2x2048x1024 _
    (ix4 (gBatch (j 0)) (j 1) (0 : Fin 1) (gCol (j 0) (j 2))) ?_).trans ?_
  · rw [Shape.rowMajor_val_four, Shape.rowMajor_val_three]
    show ((((j 0).val / 16) * 2048 + (j 1).val) * 1 + 0) * 1024 + (((j 0).val % 16) * 64 + (j 2).val)
      = (((j 0).val / 16) * 2048 + (j 1).val) * 1024 + (((j 0).val % 16) * 64 + (j 2).val)
    omega
  refine (extractStridedSlice_apply ![0, 0, off.val, 0] _ hs _
    (ix4 (gBatch (j 0)) (j 1) off (gCol (j 0) (j 2)))
    (fun a => match a with
      | ⟨0, _⟩ => by show (j 0).val / 16 = 0 + (j 0).val / 16; omega
      | ⟨1, _⟩ => by show (j 1).val = 0 + (j 1).val; omega
      | ⟨2, _⟩ => by show off.val = off.val + 0; omega
      | ⟨3, _⟩ => by show ((j 0).val % 16) * 64 + (j 2).val = 0 + (((j 0).val % 16) * 64 + (j 2).val); omega)).trans ?_
  refine (shapeCast_apply _ shapeCasts_S4096x3072_S2x2048x3x1024 _
    (ix2 (Attn.hrow (j 0) (j 1)) (Attn.hcol off (j 0) (j 2))) ?_).trans rfl
  refine ((Shape.rowMajor_val_two _).trans ?_).trans (Shape.rowMajor_val_four _).symm
  have ho : off.val < 3 := off.isLt
  show (((j 0).val / 16) * 2048 + (j 1).val) * 3072 + (off.val * 1024 + (((j 0).val % 16) * 64 + (j 2).val))
    = ((((j 0).val / 16) * 2048 + (j 1).val) * 3 + off.val) * 1024 + (((j 0).val % 16) * 64 + (j 2).val)
  omega

/-! ## The run's buffers between the regions -/

/-- A buffer no operation of a stretch writes holds after the stretch what it held before. -/
local macro "unwritten" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The bias at the second region's exit is the bias as launched. -/
theorem bias_W4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by unwritten hostOps1
    _ = W1 m ρ c (Proc.devRef .tc main_arg3) := W2_of_ne m ρ c main_arg3 (by decide)
    _ = W0 m ρ c (Proc.devRef .tc main_arg3) := by unwritten hostOps0
    _ = m ((c : Thread nD τ).loc main_arg3) := rfl

/-- Before the first region: the input read as [4096, 1024], the projection weights as launched. -/
theorem host0 (c : Dev nD) : V1 m ρ c main_v0 = Attn.relayX (m ((c : Thread nD τ).loc main_arg0)) := by
  show StableHlo.after hostOps0 (W0 m ρ c) (Proc.devRef .tc main_v0) = _
  after_results
  funext j
  show shapeCast S4096x1024 (W0 m ρ c (Proc.devRef .tc main_arg0)) shapeCasts_S2x2048x1024_S4096x1024 j = _
  refine (shapeCast_apply _ shapeCasts_S2x2048x1024_S4096x1024 j
    (ix3 (Attn.batchOf (j 0)) (Attn.seqOf (j 0)) (j 1)) ?_).trans rfl
  rw [Shape.rowMajor_val_three, Shape.rowMajor_val_two]
  have h0 : (j 0).val < 4096 := (j 0).isLt
  show (((j 0).val / 2048) * 2048 + (j 0).val % 2048) * 1024 + (j 1).val = (j 0).val * 1024 + (j 1).val
  omega
theorem host0_w (c : Dev nD) : V1 m ρ c main_arg1 = m ((c : Thread nD τ).loc main_arg1) :=
  calc W1 m ρ c (Proc.devRef .tc main_arg1)
    _ = W0 m ρ c (Proc.devRef .tc main_arg1) := by unwritten hostOps0
    _ = m ((c : Thread nD τ).loc main_arg1) := rfl

/-- Between the first and second regions: the three operands cut out of the first region's result and split into heads. -/
theorem host1_q (c : Dev nD) : V3 m ρ c main_v11 = Attn.heads 0 (W2 m ρ c (Proc.devRef .tc main_v1)) := by
  show StableHlo.after hostOps1 (W2 m ρ c) (Proc.devRef .tc main_v11) = _
  after_results
  generalize W2 m ρ c (Proc.devRef .tc main_v1) = A
  exact heads_read 0 slices_S2x2048x3x1024_S2x2048x1x1024_0_0_0_0 A
theorem host1_k (c : Dev nD) : V3 m ρ c main_v14 = Attn.heads 1 (W2 m ρ c (Proc.devRef .tc main_v1)) := by
  show StableHlo.after hostOps1 (W2 m ρ c) (Proc.devRef .tc main_v14) = _
  after_results
  generalize W2 m ρ c (Proc.devRef .tc main_v1) = A
  exact heads_read 1 slices_S2x2048x3x1024_S2x2048x1x1024_0_0_1_0 A
theorem host1_v (c : Dev nD) : V3 m ρ c main_v17 = Attn.heads 2 (W2 m ρ c (Proc.devRef .tc main_v1)) := by
  show StableHlo.after hostOps1 (W2 m ρ c) (Proc.devRef .tc main_v17) = _
  after_results
  generalize W2 m ρ c (Proc.devRef .tc main_v1) = A
  exact heads_read 2 slices_S2x2048x3x1024_S2x2048x1x1024_0_0_2_0 A

/-- Between the second and third regions: the heads merged, the output weights as launched, the bias as one row. -/
theorem host2_a (c : Dev nD) : V5 m ρ c main_v21 = Attn.merged (W4 m ρ c (Proc.devRef .tc main_v18)) := by
  show StableHlo.after hostOps2 (W4 m ρ c) (Proc.devRef .tc main_v21) = _
  after_results
  generalize W4 m ρ c (Proc.devRef .tc main_v18) = A
  exact merged_read A
theorem host2_w (c : Dev nD) : V5 m ρ c main_arg2 = m ((c : Thread nD τ).loc main_arg2) :=
  calc W5 m ρ c (Proc.devRef .tc main_arg2)
    _ = W4 m ρ c (Proc.devRef .tc main_arg2) := by unwritten hostOps2
    _ = W3 m ρ c (Proc.devRef .tc main_arg2) := W4_of_ne m ρ c main_arg2 (by decide)
    _ = W2 m ρ c (Proc.devRef .tc main_arg2) := by unwritten hostOps1
    _ = W1 m ρ c (Proc.devRef .tc main_arg2) := W2_of_ne m ρ c main_arg2 (by decide)
    _ = W0 m ρ c (Proc.devRef .tc main_arg2) := by unwritten hostOps0
    _ = m ((c : Thread nD τ).loc main_arg2) := rfl
theorem host2_b (c : Dev nD) : V5 m ρ c main_v22 = Attn.rowBias (m ((c : Thread nD τ).loc main_arg3)) := by
  show StableHlo.after hostOps2 (W4 m ρ c) (Proc.devRef .tc main_v22) = _
  after_results
  rw [bias_W4]
  funext j
  show shapeCast S1x1024 (m ((c : Thread nD τ).loc main_arg3)) shapeCasts_S1024_S1x1024 j = _
  refine (shapeCast_apply _ shapeCasts_S1024_S1x1024 j (ix1 (j 1)) ?_).trans rfl
  rw [Shape.rowMajor_val_one, Shape.rowMajor_val_two]
  have h0 : (j 0).val < 1 := (j 0).isLt
  show (j 1).val = (j 0).val * 1024 + (j 1).val
  omega

/-- After the third region: its result read as [2, 2048, 1024]. -/
theorem host3 (c : Dev nD) : W7 m ρ c (Proc.devRef .tc main_v24) = Attn.unflat (W6 m ρ c (Proc.devRef .tc main_v23)) := by
  show StableHlo.after hostOps3 (W6 m ρ c) (Proc.devRef .tc main_v24) = _
  after_results
  funext j
  show shapeCast S2x2048x1024 (W6 m ρ c (Proc.devRef .tc main_v23)) shapeCasts_S4096x1024_S2x2048x1024 j = _
  refine (shapeCast_apply _ shapeCasts_S4096x1024_S2x2048x1024 j
    (ix2 (Attn.rowOf (j 0) (j 1)) (j 2)) ?_).trans rfl
  rw [Shape.rowMajor_val_two, Shape.rowMajor_val_three]
  show ((j 0).val * 2048 + (j 1).val) * 1024 + (j 2).val = ((j 0).val * 2048 + (j 1).val) * 1024 + (j 2).val
  rfl

end Cert.KernelIdeal.HostGlue

end
-- ==== Proof.KValue.lean ====
import proofs.«113037_j64003602645285_1_alg».proof.Proof.Gen.KernelIdeal.Frame
import proofs.«113037_j64003602645285_1_alg».proof.Proof.Spec
import proofs.«113037_j64003602645285_1_alg».proof.Proof.KRegion0
import proofs.«113037_j64003602645285_1_alg».proof.Proof.KRegion1
import proofs.«113037_j64003602645285_1_alg».proof.Proof.KRegion2
import proofs.«113037_j64003602645285_1_alg».proof.Proof.KHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

open Cert.KernelIdeal.Stage0 Cert.KernelIdeal.Stage1 Cert.KernelIdeal.Stage2 Cert.KernelIdeal.HostGlue

/-- The first region's result: the projection of the input rows. -/
theorem qkv_eq (c : Dev nD) : W2 m ρ c (Proc.devRef .tc main_v1)
    = Attn.mm (Attn.relayX (m ((c : Thread nD τ).loc main_arg0))) (m ((c : Thread nD τ).loc main_arg1)) := by
  rw [show W2 m ρ c (Proc.devRef .tc main_v1) = (dat0 (V1 m ρ) c).arrAt 2 cfg0.N from W2_arr m ρ c 2, region0, host0, host0_w]

/-- The second region's result: attention over the heads cut out of the projection. -/
theorem attn_eq (c : Dev nD) : W4 m ρ c (Proc.devRef .tc main_v18)
    = Attn.att (Attn.heads 0 (W2 m ρ c (Proc.devRef .tc main_v1))) (Attn.heads 1 (W2 m ρ c (Proc.devRef .tc main_v1)))
        (Attn.heads 2 (W2 m ρ c (Proc.devRef .tc main_v1))) := by
  rw [show W4 m ρ c (Proc.devRef .tc main_v18) = (dat1 (V3 m ρ) c).arrAt 3 cfg1.N from W4_arr m ρ c 3, region1, host1_q, host1_k, host1_v]

/-- The third region's result: the output projection of the merged heads, plus the bias. -/
theorem proj_eq (c : Dev nD) : W6 m ρ c (Proc.devRef .tc main_v23)
    = Attn.mmBias (Attn.merged (W4 m ρ c (Proc.devRef .tc main_v18))) (m ((c : Thread nD τ).loc main_arg2))
        (Attn.rowBias (m ((c : Thread nD τ).loc main_arg3))) := by
  rw [show W6 m ρ c (Proc.devRef .tc main_v23) = (dat2 (V5 m ρ) c).arrAt 3 cfg2.N from W6_arr m ρ c 3, region2, host2_a, host2_w, host2_b]

/-- The result array at the return, as one function of the argument arrays. -/
theorem value (c : Dev nD) : W7 m ρ c (Proc.devRef .tc main_v24)
    = Attn.KernelOut (m ((c : Thread nD τ).loc main_arg0)) (m ((c : Thread nD τ).loc main_arg1))
        (m ((c : Thread nD τ).loc main_arg2)) (m ((c : Thread nD τ).loc main_arg3)) := by
  rw [host3, proj_eq, attn_eq, qkv_eq]
  rfl

end Cert.KernelIdeal.Whole

end
-- ==== Proof.SpecCompose.lean ====
import proofs.«113037_j64003602645285_1_alg».proof.Proof.Spec

noncomputable section

namespace Attn

open Idealize.ShloMosaic Idealize.ShloMosaic.ValueIdx

/-! ## The batch entry of a (batch, head) pair, and the index equalities -/

/-- The batch entry `b·16 + h` of head `h` in batch `b`. -/
def gIdx (b : Fin 2) (h : Fin 16) : Fin 32 := ⟨b.val * 16 + h.val, by omega⟩

theorem batchOf_rowOf (b : Fin 2) (s : Fin 2048) : batchOf (rowOf b s) = b := by
  apply Fin.ext; simp only [batchOf, rowOf]; omega

theorem seqOf_rowOf (b : Fin 2) (s : Fin 2048) : seqOf (rowOf b s) = s := by
  apply Fin.ext; simp only [seqOf, rowOf]; omega

theorem gOf_rowOf (b : Fin 2) (s : Fin 2048) (k : Fin 1024) : gOf (rowOf b s) k = gIdx b (headOf k) := by
  apply Fin.ext; simp only [gOf, rowOf, gIdx, headOf]; omega

theorem hrow_gIdx (b : Fin 2) (h : Fin 16) (s : Fin 2048) : hrow (gIdx b h) s = rowOf b s := by
  apply Fin.ext; simp only [hrow, rowOf, gIdx]; omega

theorem hcol_zero (b : Fin 2) (h : Fin 16) (d : Fin 64) : hcol 0 (gIdx b h) d = colQ h d := by
  apply Fin.ext; simp only [hcol, colQ, gIdx, Fin.val_zero]; omega

theorem hcol_one (b : Fin 2) (h : Fin 16) (d : Fin 64) : hcol 1 (gIdx b h) d = colK h d := by
  apply Fin.ext; simp only [hcol, colK, gIdx, Fin.val_one]; omega

theorem hcol_two (b : Fin 2) (h : Fin 16) (d : Fin 64) : hcol 2 (gIdx b h) d = colV h d := by
  apply Fin.ext; simp only [hcol, colV, gIdx, Fin.val_two]; omega

/-! ## The stages in natural coordinates -/

section Stages
variable (X : T3 2 2048 1024) (Wq : T2 1024 3072)

/-- The projection on re-laid rows is the projection. -/
theorem mm_relayX (b : Fin 2) (s : Fin 2048) (e : Fin 3072) :
    mm (relayX X) Wq (ix2 (rowOf b s) e) = qkv X Wq b s e := by
  show (∑ k : Fin 1024, X (ix3 (batchOf (rowOf b s)) (seqOf (rowOf b s)) k) * Wq (ix2 k e)) = _
  rw [batchOf_rowOf, seqOf_rowOf]; rfl

theorem heads_zero (b : Fin 2) (h : Fin 16) (s : Fin 2048) (d : Fin 64) :
    heads 0 (mm (relayX X) Wq) (ix3 (gIdx b h) s d) = qkv X Wq b s (colQ h d) := by
  show mm (relayX X) Wq (ix2 (hrow (gIdx b h) s) (hcol 0 (gIdx b h) d)) = _
  rw [hrow_gIdx, hcol_zero, mm_relayX]

theorem heads_one (b : Fin 2) (h : Fin 16) (s : Fin 2048) (d : Fin 64) :
    heads 1 (mm (relayX X) Wq) (ix3 (gIdx b h) s d) = qkv X Wq b s (colK h d) := by
  show mm (relayX X) Wq (ix2 (hrow (gIdx b h) s) (hcol 1 (gIdx b h) d)) = _
  rw [hrow_gIdx, hcol_one, mm_relayX]

theorem heads_two (b : Fin 2) (h : Fin 16) (s : Fin 2048) (d : Fin 64) :
    heads 2 (mm (relayX X) Wq) (ix3 (gIdx b h) s d) = qkv X Wq b s (colV h d) := by
  show mm (relayX X) Wq (ix2 (hrow (gIdx b h) s) (hcol 2 (gIdx b h) d)) = _
  rw [hrow_gIdx, hcol_two, mm_relayX]

/-- The scores of a batch entry, as a function of the key, are the scores of its (batch, head) pair. -/
theorem attScore_heads (b : Fin 2) (h : Fin 16) (i : Fin 2048) :
    attScore (heads 0 (mm (relayX X) Wq)) (heads 1 (mm (relayX X) Wq)) (gIdx b h) i = score X Wq b h i := by
  funext t
  show (∑ d : Fin 64, heads 0 (mm (relayX X) Wq) (ix3 (gIdx b h) i d) * heads 1 (mm (relayX X) Wq) (ix3 (gIdx b h) t d)) * scaleW = _
  simp only [heads_zero, heads_one]; rfl

/-- The attention of a batch entry is the head of its (batch, head) pair. -/
theorem att_heads (b : Fin 2) (h : Fin 16) (s : Fin 2048) (d : Fin 64) :
    att (heads 0 (mm (relayX X) Wq)) (heads 1 (mm (relayX X) Wq)) (heads 2 (mm (relayX X) Wq)) (ix3 (gIdx b h) s d)
      = head X Wq b h s d := by
  show (∑ t : Fin 2048, rowProb (attScore (heads 0 (mm (relayX X) Wq)) (heads 1 (mm (relayX X) Wq)) (gIdx b h) s) t
      * heads 2 (mm (relayX X) Wq) (ix3 (gIdx b h) t d)) = _
  rw [attScore_heads]; simp only [heads_two]; rfl

end Stages

/-- The tiled layout computes the function of the natural coordinates. -/
theorem kernelOut_eq (X : T3 2 2048 1024) (Wq : T2 1024 3072) (Wo : T2 1024 1024) (bias : T1 1024) :
    KernelOut X Wq Wo bias = Out X Wq Wo bias := by
  funext i
  obtain ⟨b, s, n, rfl⟩ : ∃ (b : Fin 2) (s : Fin 2048) (n : Fin 1024), i = ix3 b s n := ⟨i 0, i 1, i 2, eq_ix3 i⟩
  show (∑ k : Fin 1024,
      att (heads 0 (mm (relayX X) Wq)) (heads 1 (mm (relayX X) Wq)) (heads 2 (mm (relayX X) Wq))
        (ix3 (gOf (rowOf b s) k) (seqOf (rowOf b s)) (laneOf k)) * Wo (ix2 k n)) + bias (ix1 n)
    = (∑ k : Fin 1024, head X Wq b (headOf k) s (laneOf k) * Wo (ix2 k n)) + bias (ix1 n)
  simp only [gOf_rowOf, seqOf_rowOf, att_heads]

end Attn

end
-- ==== Proof.RefValue.lean ====
import proofs.«113037_j64003602645285_1_alg».proof.Proof.Gen.ReferenceIdeal.Read
import proofs.«113037_j64003602645285_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! The reference program read stage by stage at natural coordinates: the projection, the three head operands,
the scaled score, the softmax row (maximum, weights, total, normalised weights), one head's output, the merged
heads, and the output projection with its bias. -/

abbrev X0 := (⟨S2x2048x1024, .f32⟩ : BufTy).Contents (Elt Ideal)
abbrev X1 := (⟨S1024x3072, .f32⟩ : BufTy).Contents (Elt Ideal)
abbrev X2 := (⟨S1024x1024, .f32⟩ : BufTy).Contents (Elt Ideal)
abbrev X3 := (⟨S1024, .f32⟩ : BufTy).Contents (Elt Ideal)

/-! ## The constants the reference spells -/

/-- The f32 word of 64 denotes the real 64. -/
theorem word64 : Ideal.ofBits .f32 0x42800000#32 = ((64 : ℝ) : EReal) := by
  simp [Ideal.ofBits, Ideal.ieee, -EReal.coe_mul]; norm_num

/-- The scale word denotes 1/8. -/
theorem scaleW_eq : Attn.scaleW = ((1 / 8 : ℝ) : EReal) := by
  simp [Attn.scaleW, Ideal.ofBits, Ideal.ieee, -EReal.coe_mul]; norm_num

/-- The square root of 64 is 8. -/
theorem sqrt64 : Ideal.sqrt ((64 : ℝ) : EReal) = ((8 : ℝ) : EReal) := by
  show (if (64:ℝ) < 0 then (⊥ : EReal) else (Real.sqrt 64 : EReal)) = _
  rw [if_neg (by norm_num)]
  congr 1
  rw [show (64:ℝ) = 8 ^ 2 by norm_num]
  exact Real.sqrt_sq (by norm_num)

/-- Dividing by the square root of the word of 64 is multiplying by the scale word, on every extended real. -/
theorem div_sqrt64 (z : EReal) : Ideal.div z (Ideal.sqrt (Ideal.ofBits .f32 0x42800000#32)) = z * Attn.scaleW := by
  rw [word64, sqrt64, scaleW_eq]
  exact Ideal.div_coe (by norm_num) z

/-! ## The projection and the three head operands -/

/-- The projection at natural coordinates. -/
theorem qkv_at (x0 : X0) (x1 : X1) (b : Fin 2) (s : Fin 2048) (e : Fin 3072) :
    val_main_v0 (F := Ideal) x0 x1 (ix3 b s e) = Attn.qkv x0 x1 b s e := by
  rw [val_main_v0_apply]
  unfold Attn.qkv
  refine Finset.sum_congr rfl fun d _ => ?_
  have el : lidx_main_v0 (ix3 b s e) d = ix3 b s d :=
    funext fun a => Fin.ext (by match a with | ⟨0, _⟩ => rfl | ⟨1, _⟩ => rfl | ⟨2, _⟩ => rfl)
  have er : ridx_main_v0 (ix3 b s e) d = ix2 d e :=
    funext fun a => Fin.ext (by match a with | ⟨0, _⟩ => rfl | ⟨1, _⟩ => rfl)
  rw [el, er]

/-- Slice at column 0, split the columns into heads, swap heads and rows: entry (b, h, s, d) is column h·64 + d of row (b, s). -/
theorem idxQ (b : Fin 2) (h : Fin 16) (s : Fin 2048) (d : Fin 64) :
    idx_main_v1 (idx_main_v4 (idx_main_v5 (ix4 b h s d))) = ix3 b s (Attn.colQ h d) := by
  have hb : b.val < 2 := b.isLt
  have hh : h.val < 16 := h.isLt
  have hs : s.val < 2048 := s.isLt
  have hd : d.val < 64 := d.isLt
  refine funext fun a => Fin.ext ?_
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The same from column 1024. -/
theorem idxK (b : Fin 2) (h : Fin 16) (s : Fin 2048) (d : Fin 64) :
    idx_main_v2 (idx_main_v6 (idx_main_v7 (ix4 b h s d))) = ix3 b s (Attn.colK h d) := by
  have hb : b.val < 2 := b.isLt
  have hh : h.val < 16 := h.isLt
  have hs : s.val < 2048 := s.isLt
  have hd : d.val < 64 := d.isLt
  refine funext fun a => Fin.ext ?_
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show 1024 + (((b.val * 2048 + s.val) * 16 + h.val) * 64 + d.val) % 1024 = 1024 + (h.val * 64 + d.val); omega

/-- The same from column 2048. -/
theorem idxV (b : Fin 2) (h : Fin 16) (s : Fin 2048) (d : Fin 64) :
    idx_main_v3 (idx_main_v8 (idx_main_v9 (ix4 b h s d))) = ix3 b s (Attn.colV h d) := by
  have hb : b.val < 2 := b.isLt
  have hh : h.val < 16 := h.isLt
  have hs : s.val < 2048 := s.isLt
  have hd : d.val < 64 := d.isLt
  refine funext fun a => Fin.ext ?_
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show 2048 + (((b.val * 2048 + s.val) * 16 + h.val) * 64 + d.val) % 1024 = 2048 + (h.val * 64 + d.val); omega

/-- The query operand. -/
theorem headQ_at (x0 : X0) (x1 : X1) (b : Fin 2) (h : Fin 16) (s : Fin 2048) (d : Fin 64) :
    val_main_v5 (F := Ideal) x0 x1 (ix4 b h s d) = Attn.qkv x0 x1 b s (Attn.colQ h d) := by
  rw [val_main_v5_apply, val_main_v4_apply, val_main_v1_apply, idxQ, qkv_at]

/-- The key operand. -/
theorem headK_at (x0 : X0) (x1 : X1) (b : Fin 2) (h : Fin 16) (s : Fin 2048) (d : Fin 64) :
    val_main_v7 (F := Ideal) x0 x1 (ix4 b h s d) = Attn.qkv x0 x1 b s (Attn.colK h d) := by
  rw [val_main_v7_apply, val_main_v6_apply, val_main_v2_apply, idxK, qkv_at]

/-- The value operand. -/
theorem headV_at (x0 : X0) (x1 : X1) (b : Fin 2) (h : Fin 16) (s : Fin 2048) (d : Fin 64) :
    val_main_v9 (F := Ideal) x0 x1 (ix4 b h s d) = Attn.qkv x0 x1 b s (Attn.colV h d) := by
  rw [val_main_v9_apply, val_main_v8_apply, val_main_v3_apply, idxV, qkv_at]

/-! ## The score -/

theorem score_at (x0 : X0) (x1 : X1) (b : Fin 2) (h : Fin 16) (i j : Fin 2048) :
    val_main_v13 (F := Ideal) x0 x1 (ix4 b h i j) = Attn.score x0 x1 b h i j := by
  rw [val_main_v13_apply, val_main_v10_apply, val_main_v12_apply, val_main_v11_apply, val_main_cst_apply]
  rw [Ideal.hostDivf_def, Ideal.hostUnary_sqrt_def, Ideal.ofBits_def, div_sqrt64]
  unfold Attn.score
  refine congrArg (· * Attn.scaleW) (Finset.sum_congr rfl fun d _ => ?_)
  have el : lidx_main_v10 (ix4 b h i j) d = ix4 b h i d :=
    funext fun a => Fin.ext (by match a with | ⟨0, _⟩ => rfl | ⟨1, _⟩ => rfl | ⟨2, _⟩ => rfl | ⟨3, _⟩ => rfl)
  have er : ridx_main_v10 (ix4 b h i j) d = ix4 b h j d :=
    funext fun a => Fin.ext (by match a with | ⟨0, _⟩ => rfl | ⟨1, _⟩ => rfl | ⟨2, _⟩ => rfl | ⟨3, _⟩ => rfl)
  rw [el, er, headQ_at, headK_at]

/-! ## The softmax row -/

/-- Dropping the key axis of [2, 16, 2048, 2048] leaves [2, 16, 2048]. -/
theorem dropsKeys : S2x16x2048x2048.Reduces [3] S2x16x2048 := by decide

/-- The reduced index (b, h, i) with key k put back is (b, h, i, k). -/
theorem lift_keys (b : Fin 2) (h : Fin 16) (i : Fin 2048) (k : Fin (S2x16x2048x2048.size 3)) :
    dropsKeys.lift (ix3 b h i) k = ix4 b h i (⟨k.val, k.isLt⟩ : Fin 2048) := by
  funext c; apply Fin.ext
  fin_cases c <;> rfl

/-- The maximum-reduce from −∞ over the keys is the fold of max from −∞ over the row of scores. -/
theorem rowFold_at (x0 : X0) (x1 : X1) (b : Fin 2) (h : Fin 16) (i : Fin 2048) :
    val_main_v14 (F := Ideal) x0 x1 (ix3 b h i)
      = (Finset.univ : Finset (Fin 2048)).fold max Attn.ninf (Attn.score x0 x1 b h i) := by
  unfold val_main_v14
  refine (Host.reduce_eq_fold_single (FloatOps.maximumf (F := Ideal) (φ := .f32)) (val_main_v13 (F := Ideal) x0 x1)
    (val_main_cst_0 (F := Ideal)) reducesTo_S2x16x2048x2048_S2x16x2048_d3 dropsKeys h_S_ (ix3 b h i)).trans ?_
  have hf : (val_main_v13 (F := Ideal) x0 x1 ∘ dropsKeys.lift (ix3 b h i)) = fun k : Fin 2048 => Attn.score x0 x1 b h i k :=
    funext fun k => by
      show val_main_v13 (F := Ideal) x0 x1 (dropsKeys.lift (ix3 b h i) k) = _
      rw [lift_keys, score_at]
      rfl
  exact congrArg (fun f => Finset.fold max Attn.ninf f (Finset.univ : Finset (Fin 2048))) hf

/-- The row maximum. -/
theorem rowTop_at (x0 : X0) (x1 : X1) (b : Fin 2) (h : Fin 16) (i : Fin 2048) :
    val_main_v16 (F := Ideal) x0 x1 (ix3 b h i) = Attn.rowTop (Attn.score x0 x1 b h i) := by
  rw [val_main_v16_apply, val_main_v15_apply, val_main_cst_1_apply, Ideal.maximumf_def, Ideal.ofBits_def, rowFold_at]
  rfl

/-- The unnormalised weight. -/
theorem weight_at (x0 : X0) (x1 : X1) (b : Fin 2) (h : Fin 16) (i j : Fin 2048) :
    val_main_v20 (F := Ideal) x0 x1 (ix4 b h i j) = Attn.rowWeight (Attn.score x0 x1 b h i) j := by
  rw [val_main_v20_apply, val_main_v19_apply, val_main_v18_apply, val_main_v17_apply]
  have e : idx_main_v17 (idx_main_v18 (ix4 b h i j)) = ix3 b h i :=
    funext fun a => Fin.ext (by match a with | ⟨0, _⟩ => rfl | ⟨1, _⟩ => rfl | ⟨2, _⟩ => rfl)
  rw [e, rowTop_at, score_at, Ideal.hostUnary_exp_def, Ideal.subf_def]
  rfl

/-- The row's total weight: the sum starts from the zero word. -/
theorem total_at (x0 : X0) (x1 : X1) (b : Fin 2) (h : Fin 16) (i : Fin 2048) :
    val_main_v21 (F := Ideal) x0 x1 (ix3 b h i) = ∑ t : Fin 2048, Attn.rowWeight (Attn.score x0 x1 b h i) t := by
  rw [val_main_v21_apply, val_main_cst_2_apply, Ideal.ofBits_def, Ideal.ofBits_zero_f32, zero_add]
  refine Finset.sum_congr rfl fun t _ => ?_
  have e : idx_main_v21 (ix3 b h i) t = ix4 b h i t :=
    funext fun a => Fin.ext (by match a with | ⟨0, _⟩ => rfl | ⟨1, _⟩ => rfl | ⟨2, _⟩ => rfl | ⟨3, _⟩ => rfl)
  rw [e, weight_at]

/-- The normalised weight. -/
theorem prob_at (x0 : X0) (x1 : X1) (b : Fin 2) (h : Fin 16) (i j : Fin 2048) :
    val_main_v24 (F := Ideal) x0 x1 (ix4 b h i j) = Attn.rowProb (Attn.score x0 x1 b h i) j := by
  rw [val_main_v24_apply, val_main_v23_apply, val_main_v22_apply]
  have e : idx_main_v22 (idx_main_v23 (ix4 b h i j)) = ix3 b h i :=
    funext fun a => Fin.ext (by match a with | ⟨0, _⟩ => rfl | ⟨1, _⟩ => rfl | ⟨2, _⟩ => rfl)
  rw [e, total_at, weight_at, Ideal.hostDivf_def]
  rfl

/-! ## The heads, merged, and the output projection -/

/-- One head's output. -/
theorem head_at (x0 : X0) (x1 : X1) (b : Fin 2) (h : Fin 16) (i : Fin 2048) (d : Fin 64) :
    val_main_v25 (F := Ideal) x0 x1 (ix4 b h i d) = Attn.head x0 x1 b h i d := by
  rw [val_main_v25_apply]
  unfold Attn.head
  refine Finset.sum_congr rfl fun t _ => ?_
  have el : lidx_main_v25 (ix4 b h i d) t = ix4 b h i t :=
    funext fun a => Fin.ext (by match a with | ⟨0, _⟩ => rfl | ⟨1, _⟩ => rfl | ⟨2, _⟩ => rfl | ⟨3, _⟩ => rfl)
  have er : ridx_main_v25 (ix4 b h i d) t = ix4 b h t d :=
    funext fun a => Fin.ext (by match a with | ⟨0, _⟩ => rfl | ⟨1, _⟩ => rfl | ⟨2, _⟩ => rfl | ⟨3, _⟩ => rfl)
  rw [el, er, prob_at, headV_at]

/-- Swap rows and heads back, merge heads into columns: column k of row (b, s) is lane k % 64 of head k / 64. -/
theorem idxMerged (b : Fin 2) (s : Fin 2048) (k : Fin 1024) :
    idx_main_v26 (idx_main_v27 (ix3 b s k)) = ix4 b (Attn.headOf k) s (Attn.laneOf k) := by
  have hb : b.val < 2 := b.isLt
  have hs : s.val < 2048 := s.isLt
  have hk : k.val < 1024 := k.isLt
  refine funext fun a => Fin.ext ?_
  match a with
  | ⟨0, _⟩ => show ((b.val * 2048 + s.val) * 1024 + k.val) / 2097152 = b.val; omega
  | ⟨1, _⟩ => show ((b.val * 2048 + s.val) * 1024 + k.val) / 64 % 16 = k.val / 64; omega
  | ⟨2, _⟩ => show ((b.val * 2048 + s.val) * 1024 + k.val) / 1024 % 2048 = s.val; omega
  | ⟨3, _⟩ => show ((b.val * 2048 + s.val) * 1024 + k.val) % 64 = k.val % 64; omega

/-- The merged heads. -/
theorem merged_at (x0 : X0) (x1 : X1) (b : Fin 2) (s : Fin 2048) (k : Fin 1024) :
    val_main_v27 (F := Ideal) x0 x1 (ix3 b s k) = Attn.head x0 x1 b (Attn.headOf k) s (Attn.laneOf k) := by
  rw [val_main_v27_apply, val_main_v26_apply, idxMerged, head_at]

/-- The output projection plus the bias. -/
theorem out_at (x0 : X0) (x1 : X1) (x2 : X2) (x3 : X3) (b : Fin 2) (s : Fin 2048) (n : Fin 1024) :
    val_main_v31 (F := Ideal) x0 x1 x2 x3 (ix3 b s n) = Attn.out x0 x1 x2 x3 b s n := by
  rw [val_main_v31_apply, val_main_v28_apply, val_main_v30_apply, val_main_v29_apply, Ideal.addf_def]
  unfold Attn.out
  have eb : idx_main_v29 (idx_main_v30 (ix3 b s n)) = ix1 n :=
    funext fun a => Fin.ext (by match a with | ⟨0, _⟩ => rfl)
  rw [eb]
  refine congrArg (· + x3 (ix1 n)) (Finset.sum_congr rfl fun k _ => ?_)
  have el : lidx_main_v28 (ix3 b s n) k = ix3 b s k :=
    funext fun a => Fin.ext (by match a with | ⟨0, _⟩ => rfl | ⟨1, _⟩ => rfl | ⟨2, _⟩ => rfl)
  have er : ridx_main_v28 (ix3 b s n) k = ix2 k n :=
    funext fun a => Fin.ext (by match a with | ⟨0, _⟩ => rfl | ⟨1, _⟩ => rfl)
  rw [el, er, merged_at]

/-- The reference's last stage, at the extended reals, is the function of the natural coordinates. -/
theorem result_eq (x0 : (⟨S2x2048x1024, .f32⟩ : BufTy).Contents (Elt Ideal)) (x1 : (⟨S1024x3072, .f32⟩ : BufTy).Contents (Elt Ideal))
    (x2 : (⟨S1024x1024, .f32⟩ : BufTy).Contents (Elt Ideal)) (x3 : (⟨S1024, .f32⟩ : BufTy).Contents (Elt Ideal)) :
    val_main_v31 (F := Ideal) x0 x1 x2 x3 = Attn.Out x0 x1 x2 x3 := by
  funext i
  rw [eq_ix3 i]
  exact out_at x0 x1 x2 x3 (i 0) (i 1) (i 2)

end Cert.ReferenceIdeal.RefValue

end
-- ==== Proof.lean ====
/-
  Multi-head attention as three tiled matrix stages against its textbook form.

  The program computes, over x : [2, 2048, 1024]: a fused projection (rows b·2048 + s against w_qkv), the three operands
  cut out of the product and split into sixteen heads of width 64, per head and query row the softmax of the scaled
  scores over all 2048 keys applied to the values, the heads merged back, and an output projection with a bias row.
  The reference computes the same quantities with contractions over whole arrays. At the extended reals both are the
  function `Attn.Out` (Proof/Spec.lean): every sum runs over the same index set on both sides, a change of float format
  is the identity, and the one arithmetic difference — the program multiplies the scores by 2⁻³ where the reference
  divides them by the square root of 64 — is an identity on every extended real. So no finiteness of the inputs is used.

  The stages: each region's array as one whole-array function of the arrays it reads (Proof/KRegion0-2.lean), the
  re-layouts between the regions (Proof/KHost.lean), their composition (Proof/KValue.lean), the composition in natural
  coordinates (Proof/SpecCompose.lean), and the reference's stages read index by index (Proof/RefValue.lean).
-/
import proofs.«113037_j64003602645285_1_alg».proof.Defs
import proofs.«113037_j64003602645285_1_alg».proof.Proof.Gen.Kernel
import proofs.«113037_j64003602645285_1_alg».proof.Proof.Gen.Kernel.Skeleton
import proofs.«113037_j64003602645285_1_alg».proof.Proof.Gen.Kernel.Launch
import proofs.«113037_j64003602645285_1_alg».proof.Proof.Gen.Kernel.Points
import proofs.«113037_j64003602645285_1_alg».proof.Proof.Gen.Kernel.Frame
import proofs.«113037_j64003602645285_1_alg».proof.Proof.Gen.KernelIdeal
import proofs.«113037_j64003602645285_1_alg».proof.Proof.Gen.KernelIdeal.Skeleton
import proofs.«113037_j64003602645285_1_alg».proof.Proof.Gen.KernelIdeal.Launch
import proofs.«113037_j64003602645285_1_alg».proof.Proof.Gen.KernelIdeal.Points
import proofs.«113037_j64003602645285_1_alg».proof.Proof.Gen.KernelIdeal.Frame
import proofs.«113037_j64003602645285_1_alg».proof.Proof.Gen.ReferenceIdeal
import proofs.«113037_j64003602645285_1_alg».proof.Proof.Gen.Pre_finite_inputs
import proofs.«113037_j64003602645285_1_alg».proof.Proof.Gen.ReferenceIdeal.Run
import proofs.«113037_j64003602645285_1_alg».proof.Proof.Gen.ReferenceIdeal.Read
import proofs.«113037_j64003602645285_1_alg».proof.Proof.KernelRun
import proofs.«113037_j64003602645285_1_alg».proof.Proof.KValue
import proofs.«113037_j64003602645285_1_alg».proof.Proof.SpecCompose
import proofs.«113037_j64003602645285_1_alg».proof.Proof.RefValue
import Idealize.ShloMosaic.Adequacy
import Idealize.ShloMosaic.Init

noncomputable section

namespace Cert.Proof

open Idealize.ShloMosaic Idealize.ShloMosaic.TcCoe Idealize.SL.Sem

/-- Every execution of the program terminates without a fault, its arguments unchanged. -/
theorem frame_k : Cert.frame_Kernel := fun m ρ _ => Cert.Kernel.Gen.frame m ρ
theorem frame_ki : Cert.frame_KernelIdeal := fun m ρ _ => Cert.KernelIdeal.Gen.frame m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals the program's result array ends at `Attn.Out` of its arguments (the run with the result
    named, the three regions and the re-layouts composed, then read in natural coordinates), and so does the
    reference's (its run, its last stage read index by index) of arguments that agree. -/
theorem algebraic : Cert.algebraic_KernelIdeal_ReferenceIdeal := by
  intro m ρ m' ρ' _ hagree
  refine ⟨fun c => Attn.Out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.GenRun.run (F := Ideal) m ρ)
    rw [Cert.KernelIdeal.Whole.value, Attn.kernelOut_eq]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v31_eq, Cert.ReferenceIdeal.RefValue.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
